-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x10000 : Shape := ⟨2, ![10000, 10000]⟩
abbrev S10000x128 : Shape := ⟨2, ![10000, 128]⟩
abbrev S128x16 : Shape := ⟨2, ![128, 16]⟩
abbrev S_ : Shape := ⟨0, ![]⟩

class Facts : Prop where
  bcast_S_S10000x10000 : S_.BroadcastsInDim S10000x10000 (![] : Fin 0 → Fin S10000x10000.rank)
  reducesTo_S10000x10000_S_d0_1 : S10000x10000.ReducesTo [0, 1] S_
  h_S_ : 0 < S_.numel
  bcast_S_S10000x128 : S_.BroadcastsInDim S10000x128 (![] : Fin 0 → Fin S10000x128.rank)
  reducesTo_S10000x128_S_d0_1 : S10000x128.ReducesTo [0, 1] S_
  bcast_S_S128x16 : S_.BroadcastsInDim S128x16 (![] : Fin 0 → Fin S128x16.rank)
  reducesTo_S128x16_S_d0_1 : S128x16.ReducesTo [0, 1] S_

variable [Facts]

def fn {F : FTy → Type} [FloatOps F] (main_arg0 : FVec F S10000x10000 .f32) (main_arg1 : FVec F S10000x128 .f32) (main_arg2 : FVec F S128x16 .f32) : IVec S_ 1 :=
  let main_v0 : FVec F S10000x10000 .f32 := Host.absf main_arg0
  let main_cst : FVec F S_ .f32 := constant S_ .f32 0x7F800000#32
  let main_v1 : FVec F S10000x10000 .f32 := broadcastInDim S10000x10000 ![] bcast_S_S10000x10000 main_cst
  let main_v2 : IVec S10000x10000 1 := cmpf .olt main_v0 main_v1
  let main_c : IVec S_ 1 := constantI S_ 1 1#1
  let main_v3 : IVec S_ 1 := (fun x v => Host.reduce IntOp.andi x v reducesTo_S10000x10000_S_d0_1 h_S_) main_v2 main_c
  let main_v4 : FVec F S10000x128 .f32 := Host.absf main_arg1
  let main_cst_0 : FVec F S_ .f32 := constant S_ .f32 0x7F800000#32
  let main_v5 : FVec F S10000x128 .f32 := broadcastInDim S10000x128 ![] bcast_S_S10000x128 main_cst_0
  let main_v6 : IVec S10000x128 1 := cmpf .olt main_v4 main_v5
  let main_c_1 : IVec S_ 1 := constantI S_ 1 1#1
  let main_v7 : IVec S_ 1 := (fun x v => Host.reduce IntOp.andi x v reducesTo_S10000x128_S_d0_1 h_S_) main_v6 main_c_1
  let main_v8 : IVec S_ 1 := andi main_v3 main_v7
  let main_v9 : FVec F S128x16 .f32 := Host.absf main_arg2
  let main_cst_2 : FVec F S_ .f32 := constant S_ .f32 0x7F800000#32
  let main_v10 : FVec F S128x16 .f32 := broadcastInDim S128x16 ![] bcast_S_S128x16 main_cst_2
  let main_v11 : IVec S128x16 1 := cmpf .olt main_v9 main_v10
  let main_c_3 : IVec S_ 1 := constantI S_ 1 1#1
  let main_v12 : IVec S_ 1 := (fun x v => Host.reduce IntOp.andi x v reducesTo_S128x16_S_d0_1 h_S_) main_v11 main_c_3
  let main_v13 : IVec S_ 1 := andi main_v8 main_v12
  main_v13
-- ==== Kernel.lean ====
abbrev S10000x10000 : Shape := ⟨2, ![10000, 10000]⟩
abbrev S10000x128 : Shape := ⟨2, ![10000, 128]⟩
abbrev S128x16 : Shape := ⟨2, ![128, 16]⟩
abbrev S10000x16 : Shape := ⟨2, ![10000, 16]⟩
abbrev S400x10000 : Shape := ⟨2, ![400, 10000]⟩
abbrev S400x16 : Shape := ⟨2, ![400, 16]⟩

abbrev nBuf : Space → Nat
  | .hbm => 6
  | .vmem => 13
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x16, .f32⟩
  | .hbm, ⟨3, _⟩ => ⟨S10000x16, .bf16⟩
  | .hbm, ⟨4, _⟩ => ⟨S10000x16, .bf16⟩
  | .hbm, ⟨5, _⟩ => ⟨S10000x16, .f32⟩
  | .local _ .vmem, ⟨0, _⟩ => ⟨S10000x128, .f32⟩
  | .local _ .vmem, ⟨1, _⟩ => ⟨S128x16, .f32⟩
  | .local _ .vmem, ⟨2, _⟩ => ⟨S10000x16, .bf16⟩
  | .local _ .vmem, ⟨3, _⟩ => ⟨S400x10000, .f32⟩
  | .local _ .vmem, ⟨4, _⟩ => ⟨S400x10000, .f32⟩
  | .local _ .vmem, ⟨5, _⟩ => ⟨S10000x16, .bf16⟩
  | .local _ .vmem, ⟨6, _⟩ => ⟨S400x16, .bf16⟩
  | .local _ .vmem, ⟨7, _⟩ => ⟨S400x16, .bf16⟩
  | .local _ .vmem, ⟨8, _⟩ => ⟨S400x10000, .f32⟩
  | .local _ .vmem, ⟨9, _⟩ => ⟨S400x10000, .f32⟩
  | .local _ .vmem, ⟨10, _⟩ => ⟨S10000x16, .bf16⟩
  | .local _ .vmem, ⟨11, _⟩ => ⟨S400x16, .f32⟩
  | .local _ .vmem, ⟨12, _⟩ => ⟨S400x16, .f32⟩
  | _, _ => ⟨S10000x10000, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc1_stg0_0 : Ref sig .tc := ⟨.vmem, 3, rfl⟩
abbrev cc1_stg0_1 : Ref sig .tc := ⟨.vmem, 4, rfl⟩
abbrev cc1_stg1_0 : Ref sig .tc := ⟨.vmem, 5, rfl⟩
abbrev cc1_stg2_0 : Ref sig .tc := ⟨.vmem, 6, rfl⟩
abbrev cc1_stg2_1 : Ref sig .tc := ⟨.vmem, 7, rfl⟩
abbrev cc2_stg0_0 : Ref sig .tc := ⟨.vmem, 8, rfl⟩
abbrev cc2_stg0_1 : Ref sig .tc := ⟨.vmem, 9, rfl⟩
abbrev cc2_stg1_0 : Ref sig .tc := ⟨.vmem, 10, rfl⟩
abbrev cc2_stg2_0 : Ref sig .tc := ⟨.vmem, 11, rfl⟩
abbrev cc2_stg2_1 : Ref sig .tc := ⟨.vmem, 12, rfl⟩
abbrev cc0_sem0_0 : DmaSem sig := 0
abbrev cc0_sem1_0 : DmaSem sig := 1
abbrev cc0_sem2_0 : DmaSem sig := 2
abbrev cc1_sem0_0 : DmaSem sig := 3
abbrev cc1_sem0_1 : DmaSem sig := 4
abbrev cc1_sem1_0 : DmaSem sig := 5
abbrev cc1_sem2_0 : DmaSem sig := 6
abbrev cc1_sem2_1 : DmaSem sig := 7
abbrev cc2_sem0_0 : DmaSem sig := 8
abbrev cc2_sem0_1 : DmaSem sig := 9
abbrev cc2_sem1_0 : DmaSem sig := 10
abbrev cc2_sem2_0 : DmaSem sig := 11
abbrev cc2_sem2_1 : DmaSem sig := 12

abbrev nD : Nat := 1
abbrev τ : Topo := Topo.v7x

variable {F : FTy → Type} [FloatOps F]

abbrev grid0 : Pipeline.Grid := .none

abbrev stage0_0 : Fin 1 → Memref sig .tc .vmem S10000x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S128x16 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S10000x16 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S400x10000 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S10000x16 .bf16 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S400x16 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S400x10000 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S10000x16 .bf16 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S400x16 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

class Facts₀ : Prop where
  inb_S10000x128_S10000x128_0_0 : ∀ a, (![0, 0] : Fin 2 → Nat) a + S10000x128.size a ≤ S10000x128.size a
  h_S10000x128 : 0 < S10000x128.numel
  inb_S128x16_S128x16_0_0 : ∀ a, (![0, 0] : Fin 2 → Nat) a + S128x16.size a ≤ S128x16.size a
  h_S128x16 : 0 < S128x16.numel
  bitsLt_bf16_f32 : FTy.bits .bf16 < FTy.bits .f32
  inb_S10000x16_S10000x16_0_0 : ∀ a, (![0, 0] : Fin 2 → Nat) a + S10000x16.size a ≤ S10000x16.size a
  h_S10000x16 : 0 < S10000x16.numel
  packedbf16_S10000x16_S10000x16_0_0 : (Rect.unit (s := S10000x16) ![0, 0] S10000x16.size inb_S10000x16_S10000x16_0_0).PackedRows (EltTy.packing .bf16)
  inb_S400x10000_S400x10000_0_0 : ∀ a, (![0, 0] : Fin 2 → Nat) a + S400x10000.size a ≤ S400x10000.size a
  h_S400x10000 : 0 < S400x10000.numel
  shapeCasts_S10000x16_S10000x16 : S10000x16.ShapeCasts S10000x16
  inb_S400x16_S400x16_0_0 : ∀ a, (![0, 0] : Fin 2 → Nat) a + S400x16.size a ≤ S400x16.size a
  h_S400x16 : 0 < S400x16.numel
  packedbf16_S400x16_S400x16_0_0 : (Rect.unit (s := S400x16) ![0, 0] S400x16.size inb_S400x16_S400x16_0_0).PackedRows (EltTy.packing .bf16)
  dot_S10000x128_S128x16_S10000x16_1_0_0_1_n_n_wf : DotDims.WF S10000x128 S128x16 S10000x16 [1] [0] [0] [1] [] []
  dot_S400x10000_S10000x16_S400x16_1_0_0_1_n_n_wf : DotDims.WF S400x10000 S10000x16 S400x16 [1] [0] [0] [1] [] []
  hstage0_0 : ∀ j, (stage0_0 j).IsWhole
  hstage0_1 : ∀ j, (stage0_1 j).IsWhole
  hstage0_2 : ∀ j, (stage0_2 j).IsWhole
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S400x10000.size a ≤ S10000x10000.size a
  hwx1_0 : ∀ i : grid1.Coords, EltTy.bits .f32 = 32 ∨ (Rect.block (s := S10000x10000) S400x10000.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S10000x16.size a ≤ S10000x16.size a
  hwx1_1 : ∀ i : grid1.Coords, EltTy.bits .bf16 = 32 ∨ (Rect.block (s := S10000x16) S10000x16.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S400x16.size a ≤ S10000x16.size a
  hwx1_2 : ∀ i : grid1.Coords, EltTy.bits .bf16 = 32 ∨ (Rect.block (s := S10000x16) S400x16.size (cc1_transform_2 i) (hinb1_2 i)).WholeWords (EltTy.packing .bf16)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S400x10000.size a ≤ S10000x10000.size a
  hwx2_0 : ∀ i : grid2.Coords, EltTy.bits .f32 = 32 ∨ (Rect.block (s := S10000x10000) S400x10000.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S10000x16.size a ≤ S10000x16.size a
  hwx2_1 : ∀ i : grid2.Coords, EltTy.bits .bf16 = 32 ∨ (Rect.block (s := S10000x16) S10000x16.size (cc2_transform_1 i) (hinb2_1 i)).WholeWords (EltTy.packing .bf16)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S400x16.size a ≤ S10000x16.size a
  hwx2_2 : ∀ i : grid2.Coords, EltTy.bits .f32 = 32 ∨ (Rect.block (s := S10000x16) S400x16.size (cc2_transform_2 i) (hinb2_2 i)).WholeWords (EltTy.packing .f32)

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S400x10000_S10000x16_S400x16_1_0_0_1_n_n : DotDims S400x10000 S10000x16 S400x16 where
  lhsContracting := [1]
  rhsContracting := [0]
  lhsNonContracting := [0]
  rhsNonContracting := [1]
  lhsBatch := []
  rhsBatch := []
  wf := dot_S400x10000_S10000x16_S400x16_1_0_0_1_n_n_wf

abbrev win0_0 : Pipeline.Window sig grid0 :=
  Pipeline.Window.whole (Memref.whole main_arg1) false false (stage0_0 0) (sem0_0 0) (Memref.isWhole_whole _) (hstage0_0 0)

abbrev win0_1 : Pipeline.Window sig grid0 :=
  Pipeline.Window.whole (Memref.whole main_arg2) false false (stage0_1 0) (sem0_1 0) (Memref.isWhole_whole _) (hstage0_1 0)

abbrev win0_2 : Pipeline.Window sig grid0 :=
  Pipeline.Window.whole (Memref.whole main_v0) true false (stage0_2 0) (sem0_2 0) (Memref.isWhole_whole _) (hstage0_2 0)

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg0) S400x10000.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v0) S10000x16.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v1) S400x16.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S400x10000.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v1) S10000x16.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v2) S400x16.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S10000x10000 : Shape := ⟨2, ![10000, 10000]⟩
abbrev S10000x128 : Shape := ⟨2, ![10000, 128]⟩
abbrev S128x16 : Shape := ⟨2, ![128, 16]⟩
abbrev S10000x16 : Shape := ⟨2, ![10000, 16]⟩
abbrev S_ : Shape := ⟨0, ![]⟩

abbrev nBuf : Space → Nat
  | .hbm => 9
  | .vmem => 0
  | .smem => 0
  | _ => 0

abbrev bufTy : (tb : Table) → Fin (tcTables nBuf tb) → BufTy
  | .hbm, ⟨0, _⟩ => ⟨S10000x10000, .f32⟩
  | .hbm, ⟨1, _⟩ => ⟨S10000x128, .f32⟩
  | .hbm, ⟨2, _⟩ => ⟨S128x16, .f32⟩
  | .hbm, ⟨3, _⟩ => ⟨S10000x16, .f32⟩
  | .hbm, ⟨4, _⟩ => ⟨S_, .f32⟩
  | .hbm, ⟨5, _⟩ => ⟨S10000x16, .f32⟩
  | .hbm, ⟨6, _⟩ => ⟨S10000x16, .f32⟩
  | .hbm, ⟨7, _⟩ => ⟨S10000x16, .f32⟩
  | .hbm, ⟨8, _⟩ => ⟨S10000x16, .f32⟩
  | _, _ => ⟨S10000x10000, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_call0_cst : Ref sig .tc := ⟨.hbm, 4, rfl⟩
abbrev main_call0_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩

abbrev nD : Nat := 1
abbrev τ : Topo := Topo.v7x

variable {F : FTy → Type} [FloatOps F]

class Facts₀ : Prop where
  bcast_S_S10000x16 : S_.BroadcastsInDim S10000x16 (![] : Fin 0 → Fin S10000x16.rank)
  dot_S10000x128_S128x16_S10000x16_1_0_0_1_n_n_wf : DotDims.WF S10000x128 S128x16 S10000x16 [1] [0] [0] [1] [] []
  dot_S10000x10000_S10000x16_S10000x16_1_0_0_1_n_n_wf : DotDims.WF S10000x10000 S10000x16 S10000x16 [1] [0] [0] [1] [] []

variable [Facts₀]

def dot_S10000x128_S128x16_S10000x16_1_0_0_1_n_n : DotDims S10000x128 S128x16 S10000x16 where
  lhsContracting := [1]
  rhsContracting := [0]
  lhsNonContracting := [0]
  rhsNonContracting := [1]
  lhsBatch := []
  rhsBatch := []
  wf := dot_S10000x128_S128x16_S10000x16_1_0_0_1_n_n_wf
def dot_S10000x10000_S10000x16_S10000x16_1_0_0_1_n_n : DotDims S10000x10000 S10000x16 S10000x16 where
  lhsContracting := [1]
  rhsContracting := [0]
  lhsNonContracting := [0]
  rhsNonContracting := [1]
  lhsBatch := []
  rhsBatch := []
  wf := dot_S10000x10000_S10000x16_S10000x16_1_0_0_1_n_n_wf

class Facts : Prop extends Facts₀ where

variable [Facts]
-- ==== Proof.Spec.lean ====
/-
  The mathematics both programs compute, stated once, index by index, over the extended reals.

  With A a 10000 x 10000 matrix, X a 10000 x 128 matrix and W a 128 x 16 matrix:
    H = max (X W, 0)          (`hiddenLayer`: one dense layer followed by the positive part),
    Y = A (A H)               (`propagate` applied twice: two propagation steps along A).
  Every product is the plain sum over the contracted index of the products of the entries; no
  law of the extended reals is needed to join the two programs, since both group the products the
  same way (first A H, then A times that).
-/
import Idealize.ShloMosaic.PureOps.Ideal
import Idealize.ShloMosaic.Lib.ValueIdx

noncomputable section

open scoped BigOperators

namespace Gcn

open Idealize.ShloMosaic Idealize.ShloMosaic.ValueIdx

/-- The adjacency matrix's index set. -/
abbrev SA : Shape := ⟨2, ![10000, 10000]⟩
/-- The feature matrix's index set. -/
abbrev SX : Shape := ⟨2, ![10000, 128]⟩
/-- The weight matrix's index set. -/
abbrev SW : Shape := ⟨2, ![128, 16]⟩
/-- The index set of every 10000 x 16 intermediate and of the result. -/
abbrev SY : Shape := ⟨2, ![10000, 16]⟩

/-- The row of an entry of a 10000 x 16 matrix, as a number below 10000. -/
abbrev row (i : SY.Idx) : Fin 10000 := ⟨(i 0).val, idx2_lt0 i⟩
/-- Its column, as a number below 16. -/
abbrev col (i : SY.Idx) : Fin 16 := ⟨(i 1).val, idx2_lt1 i⟩

/-- The hidden layer: entry (r, c) of max (X W, 0) is the positive part of the sum over k of X[r, k] W[k, c]. -/
def hiddenLayer (x : SX.Idx → EReal) (w : SW.Idx → EReal) : SY.Idx → EReal :=
  fun i => max (∑ k : Fin 128, x (ix2 (row i) k) * w (ix2 k (col i))) 0

/-- One propagation step: entry (r, c) of A Z is the sum over k of A[r, k] Z[k, c]. -/
def propagate (a : SA.Idx → EReal) (z : SY.Idx → EReal) : SY.Idx → EReal :=
  fun i => ∑ k : Fin 10000, a (ix2 (row i) k) * z (ix2 k (col i))

/-- The whole layer: two propagation steps applied to the hidden layer. -/
def layer (a : SA.Idx → EReal) (x : SX.Idx → EReal) (w : SW.Idx → EReal) : SY.Idx → EReal :=
  propagate a (propagate a (hiddenLayer x w))

end Gcn

end
-- ==== Proof.Payload.lean ====
/-
  What each kernel body stores, read at one entry, over the extended reals.

  The first body stores max (x0 x1, 0): a matrix product into a zero accumulator, the maximum with a
  zero splat, and a change of float format, which is the identity on extended reals.
  The two propagation bodies store a0 z, the product of a 400 x 10000 block of rows with the whole
  10000 x 16 matrix, again into a zero accumulator; the changes of format and the shape cast of the
  right operand to its own shape are identities.
  A product's entry (r, c) is the sum over the one contracted coordinate k of left[r, k] right[k, c].
-/
import proofs.«137598_g59090160058611_cont_9to1_m_534_2_alg».proof.Proof.Gen.KernelIdeal.Skeleton
import proofs.«137598_g59090160058611_cont_9to1_m_534_2_alg».proof.Proof.Spec
import Idealize.ShloMosaic.PureOps.Ideal.Laws
import Idealize.ShloMosaic.Lib.ValueIdx
import Idealize.ShloMosaic.Lib.Pipeline.Value

noncomputable section

open scoped BigOperators

namespace Cert.KernelIdeal.Pay

open Cert.KernelIdeal Cert.KernelIdeal.Gen Idealize.ShloMosaic Idealize.ShloMosaic.ValueIdx Gcn

/-! ## The dense layer's product: which entries of the operands entry (r, c) multiplies -/

theorem lhsA_0 (i : S10000x16.Idx) (q : dot_S10000x128_S128x16_S10000x16_1_0_0_1_n_n.contr.Idx) :
    (dot_S10000x128_S128x16_S10000x16_1_0_0_1_n_n.lhsIdx i q 0).val = (i 0).val := by
  unfold DotDims.lhsIdx
  rw [dif_neg (show ¬(0 : Fin S10000x128.rank) ∈ dot_S10000x128_S128x16_S10000x16_1_0_0_1_n_n.lhsBatch by decide), dif_pos (show (0 : Fin S10000x128.rank) ∈ dot_S10000x128_S128x16_S10000x16_1_0_0_1_n_n.lhsNonContracting by decide)]
  rfl
theorem lhsA_1 (i : S10000x16.Idx) (q : dot_S10000x128_S128x16_S10000x16_1_0_0_1_n_n.contr.Idx) :
    (dot_S10000x128_S128x16_S10000x16_1_0_0_1_n_n.lhsIdx i q 1).val = (q ⟨0, by decide⟩).val :=
  dot_S10000x128_S128x16_S10000x16_1_0_0_1_n_n.lhsIdx_val_of_single rfl i q
theorem rhsA_0 (i : S10000x16.Idx) (q : dot_S10000x128_S128x16_S10000x16_1_0_0_1_n_n.contr.Idx) :
    (dot_S10000x128_S128x16_S10000x16_1_0_0_1_n_n.rhsIdx i q 0).val = (q ⟨0, by decide⟩).val :=
  dot_S10000x128_S128x16_S10000x16_1_0_0_1_n_n.rhsIdx_val_of_single rfl i q
theorem rhsA_1 (i : S10000x16.Idx) (q : dot_S10000x128_S128x16_S10000x16_1_0_0_1_n_n.contr.Idx) :
    (dot_S10000x128_S128x16_S10000x16_1_0_0_1_n_n.rhsIdx i q 1).val = (i 1).val := by
  unfold DotDims.rhsIdx
  rw [dif_neg (show ¬(1 : Fin S128x16.rank) ∈ dot_S10000x128_S128x16_S10000x16_1_0_0_1_n_n.rhsBatch by decide), dif_pos (show (1 : Fin S128x16.rank) ∈ dot_S10000x128_S128x16_S10000x16_1_0_0_1_n_n.rhsNonContracting by decide)]
  rfl

/-- The dense product into the zero accumulator, at entry `i`: the sum over k of x0[row, k] x1[k, column]. -/
theorem dense_apply (x0 : SX.Idx → EReal) (x1 : SW.Idx → EReal) (i : S10000x16.Idx) :
    FloatOps.matmul (F := Ideal) (φ₁ := .f32) (φ₂ := .f32) dot_S10000x128_S128x16_S10000x16_1_0_0_1_n_n none x0 x1 (constant S10000x16 .f32 0x00000000#32) i
      = ∑ k : Fin 128, x0 (ix2 (row i) k) * x1 (ix2 k (col i)) := by
  rw [Ideal.matmul_constant_zero_apply, ← Equiv.sum_comp (contrEquiv1 dot_S10000x128_S128x16_S10000x16_1_0_0_1_n_n 128 rfl rfl).symm]
  refine Finset.sum_congr rfl fun k _ => ?_
  have hk := contrEquiv1_symm_val dot_S10000x128_S128x16_S10000x16_1_0_0_1_n_n 128 rfl rfl k
  have el : dot_S10000x128_S128x16_S10000x16_1_0_0_1_n_n.lhsIdx i ((contrEquiv1 dot_S10000x128_S128x16_S10000x16_1_0_0_1_n_n 128 rfl rfl).symm k) = ix2 (row i) k := funext fun a => Fin.ext (by
    match a with
    | ⟨0, _⟩ => exact lhsA_0 _ _
    | ⟨1, _⟩ => exact (lhsA_1 _ _).trans hk)
  have er : dot_S10000x128_S128x16_S10000x16_1_0_0_1_n_n.rhsIdx i ((contrEquiv1 dot_S10000x128_S128x16_S10000x16_1_0_0_1_n_n 128 rfl rfl).symm k) = ix2 k (col i) := funext fun a => Fin.ext (by
    match a with
    | ⟨0, _⟩ => exact (rhsA_0 _ _).trans hk
    | ⟨1, _⟩ => exact rhsA_1 _ _)
  rw [el, er]

/-- THE FIRST BODY'S STORE is the hidden layer of its two loaded arrays. -/
theorem pay0_eq (x0 : Vec Ideal S10000x128 .f32) (x1 : Vec Ideal S128x16 .f32) :
    k0_pay1 (F := Ideal) x0 x1 = hiddenLayer x0 x1 := by
  funext i
  unfold k0_pay1
  show max (FloatOps.matmul (F := Ideal) (φ₁ := .f32) (φ₂ := .f32) dot_S10000x128_S128x16_S10000x16_1_0_0_1_n_n none x0 x1 (constant S10000x16 .f32 0x00000000#32) i) (Ideal.ofBits .f32 0x00000000#32) = _
  rw [dense_apply, Ideal.ofBits_zero_f32]
  rfl

/-! ## A propagation step's product on one block of 400 rows -/

/-- The row of an entry of a 400 x 16 block, as a number below 400. -/
abbrev brow (j : S400x16.Idx) : Fin 400 := ⟨(j 0).val, idx2_lt0 j⟩
/-- Its column, as a number below 16. -/
abbrev bcol (j : S400x16.Idx) : Fin 16 := ⟨(j 1).val, idx2_lt1 j⟩

theorem lhsB_0 (j : S400x16.Idx) (q : dot_S400x10000_S10000x16_S400x16_1_0_0_1_n_n.contr.Idx) :
    (dot_S400x10000_S10000x16_S400x16_1_0_0_1_n_n.lhsIdx j q 0).val = (j 0).val := by
  unfold DotDims.lhsIdx
  rw [dif_neg (show ¬(0 : Fin S400x10000.rank) ∈ dot_S400x10000_S10000x16_S400x16_1_0_0_1_n_n.lhsBatch by decide), dif_pos (show (0 : Fin S400x10000.rank) ∈ dot_S400x10000_S10000x16_S400x16_1_0_0_1_n_n.lhsNonContracting by decide)]
  rfl
theorem lhsB_1 (j : S400x16.Idx) (q : dot_S400x10000_S10000x16_S400x16_1_0_0_1_n_n.contr.Idx) :
    (dot_S400x10000_S10000x16_S400x16_1_0_0_1_n_n.lhsIdx j q 1).val = (q ⟨0, by decide⟩).val :=
  dot_S400x10000_S10000x16_S400x16_1_0_0_1_n_n.lhsIdx_val_of_single rfl j q
theorem rhsB_0 (j : S400x16.Idx) (q : dot_S400x10000_S10000x16_S400x16_1_0_0_1_n_n.contr.Idx) :
    (dot_S400x10000_S10000x16_S400x16_1_0_0_1_n_n.rhsIdx j q 0).val = (q ⟨0, by decide⟩).val :=
  dot_S400x10000_S10000x16_S400x16_1_0_0_1_n_n.rhsIdx_val_of_single rfl j q
theorem rhsB_1 (j : S400x16.Idx) (q : dot_S400x10000_S10000x16_S400x16_1_0_0_1_n_n.contr.Idx) :
    (dot_S400x10000_S10000x16_S400x16_1_0_0_1_n_n.rhsIdx j q 1).val = (j 1).val := by
  unfold DotDims.rhsIdx
  rw [dif_neg (show ¬(1 : Fin S10000x16.rank) ∈ dot_S400x10000_S10000x16_S400x16_1_0_0_1_n_n.rhsBatch by decide), dif_pos (show (1 : Fin S10000x16.rank) ∈ dot_S400x10000_S10000x16_S400x16_1_0_0_1_n_n.rhsNonContracting by decide)]
  rfl

/-- The block product into the zero accumulator, at entry `j` of the block: the sum over k of a0[row, k] z[k, column]. -/
theorem block_apply (a0 : S400x10000.Idx → EReal) (z : S10000x16.Idx → EReal) (j : S400x16.Idx) :
    FloatOps.matmul (F := Ideal) (φ₁ := .bf16) (φ₂ := .bf16) dot_S400x10000_S10000x16_S400x16_1_0_0_1_n_n none a0 z (constant S400x16 .f32 0x00000000#32) j
      = ∑ k : Fin 10000, a0 (ix2 (brow j) k) * z (ix2 k (bcol j)) := by
  rw [Ideal.matmul_constant_zero_apply, ← Equiv.sum_comp (contrEquiv1 dot_S400x10000_S10000x16_S400x16_1_0_0_1_n_n 10000 rfl rfl).symm]
  refine Finset.sum_congr rfl fun k _ => ?_
  have hk := contrEquiv1_symm_val dot_S400x10000_S10000x16_S400x16_1_0_0_1_n_n 10000 rfl rfl k
  have el : dot_S400x10000_S10000x16_S400x16_1_0_0_1_n_n.lhsIdx j ((contrEquiv1 dot_S400x10000_S10000x16_S400x16_1_0_0_1_n_n 10000 rfl rfl).symm k) = ix2 (brow j) k := funext fun a => Fin.ext (by
    match a with
    | ⟨0, _⟩ => exact lhsB_0 _ _
    | ⟨1, _⟩ => exact (lhsB_1 _ _).trans hk)
  have er : dot_S400x10000_S10000x16_S400x16_1_0_0_1_n_n.rhsIdx j ((contrEquiv1 dot_S400x10000_S10000x16_S400x16_1_0_0_1_n_n 10000 rfl rfl).symm k) = ix2 k (bcol j) := funext fun a => Fin.ext (by
    match a with
    | ⟨0, _⟩ => exact (rhsB_0 _ _).trans hk
    | ⟨1, _⟩ => exact rhsB_1 _ _)
  rw [el, er]

/-- THE SECOND BODY'S STORE at an entry of its block. -/
theorem pay1_apply (a0 : Vec Ideal S400x10000 .f32) (z : Vec Ideal S10000x16 .bf16) (j : S400x16.Idx) :
    k1_pay1 (F := Ideal) a0 z j = ∑ k : Fin 10000, a0 (ix2 (brow j) k) * z (ix2 k (bcol j)) := by
  unfold k1_pay1
  show FloatOps.matmul (F := Ideal) (φ₁ := .bf16) (φ₂ := .bf16) dot_S400x10000_S10000x16_S400x16_1_0_0_1_n_n none a0 (shapeCast S10000x16 z shapeCasts_S10000x16_S10000x16) (constant S400x16 .f32 0x00000000#32) j = _
  rw [shapeCast_self, block_apply]

/-- THE THIRD BODY'S STORE at an entry of its block: the same product, kept in the wider format. -/
theorem pay2_apply (a0 : Vec Ideal S400x10000 .f32) (z : Vec Ideal S10000x16 .bf16) (j : S400x16.Idx) :
    k2_pay1 (F := Ideal) a0 z j = ∑ k : Fin 10000, a0 (ix2 (brow j) k) * z (ix2 k (bcol j)) := by
  unfold k2_pay1
  show FloatOps.matmul (F := Ideal) (φ₁ := .bf16) (φ₂ := .bf16) dot_S400x10000_S10000x16_S400x16_1_0_0_1_n_n none a0 (shapeCast S10000x16 z shapeCasts_S10000x16_S10000x16) (constant S400x16 .f32 0x00000000#32) j = _
  rw [shapeCast_self, block_apply]

end Cert.KernelIdeal.Pay

end
-- ==== Proof.Region0.lean ====
/-
  The dense region, at whatever the arrays hold when it is entered (`V`): its result array ends
  holding max (X W, 0), the hidden layer of the feature matrix X and the weight matrix W.

  The kernel has no grid: its one point is handed all of X and all of W and writes back the whole
  10000 x 16 result, whose entry (r, c) is the positive part of the sum over k of X[r, k] W[k, c].
  Each window's one block starts at the array's origin and has the array's extents, so a block's
  entry is the array's entry at the same coordinates, and the one written block is the whole result.
-/
import proofs.«137598_g59090160058611_cont_9to1_m_534_2_alg».proof.Proof.Gen.KernelIdeal.Frame
import proofs.«137598_g59090160058611_cont_9to1_m_534_2_alg».proof.Proof.Payload
import Idealize.ShloMosaic.Lib.Pipeline.Value

noncomputable section

open scoped BigOperators

namespace Cert.KernelIdeal.Dense

open Cert.KernelIdeal Cert.KernelIdeal.Gen Idealize.ShloMosaic Idealize.ShloMosaic.TcCoe Idealize.SL.Sem
open Idealize.ShloMosaic.ValueIdx Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- Every window's one block is block (0, 0). -/
theorem idx_facts : ∀ t : Fin cfg0.N, win0_0.index t (0 : Fin 2) = 0 ∧ win0_0.index t (1 : Fin 2) = 0
    ∧ win0_1.index t (0 : Fin 2) = 0 ∧ win0_1.index t (1 : Fin 2) = 0
    ∧ win0_2.index t (0 : Fin 2) = 0 ∧ win0_2.index t (1 : Fin 2) = 0 :=
  (by decide +kernel : ∀ t : Fin grid0.N, _)

/-- The block of X is X. -/
theorem xblk_apply (c : Dev nD) (t : Fin cfg0.N) (x : S10000x128.Idx) (k : S10000x128.Idx)
    (hk0 : (k 0).val = (x 0).val) (hk1 : (k 1).val = (x 1).val) :
    (iblk0 V c 0 t : Vec Ideal S10000x128 .f32) x = (V c main_arg1 : S10000x128.Idx → EReal) k := by
  obtain ⟨e0, e1, -, -, -, -⟩ := idx_facts t
  unfold iblk0
  rw [View.read_apply]
  show V c main_arg1 _ = V c main_arg1 _
  congr 1
  funext a
  apply Fin.ext
  match a with
  | ⟨0, _⟩ => show win0_0.index t (0 : Fin 2) * 10000 + 1 * (x 0).val = (k 0).val; rw [e0, hk0]; omega
  | ⟨1, _⟩ => show win0_0.index t (1 : Fin 2) * 128 + 1 * (x 1).val = (k 1).val; rw [e1, hk1]; omega

/-- The block of W is W. -/
theorem wblk_apply (c : Dev nD) (t : Fin cfg0.N) (x : S128x16.Idx) (k : S128x16.Idx)
    (hk0 : (k 0).val = (x 0).val) (hk1 : (k 1).val = (x 1).val) :
    (iblk0 V c 1 t : Vec Ideal S128x16 .f32) x = (V c main_arg2 : S128x16.Idx → EReal) k := by
  obtain ⟨-, -, e2, e3, -, -⟩ := idx_facts t
  unfold iblk0
  rw [View.read_apply]
  show V c main_arg2 _ = V c main_arg2 _
  congr 1
  funext a
  apply Fin.ext
  match a with
  | ⟨0, _⟩ => show win0_1.index t (0 : Fin 2) * 128 + 1 * (x 0).val = (k 0).val; rw [e2, hk0]; omega
  | ⟨1, _⟩ => show win0_1.index t (1 : Fin 2) * 16 + 1 * (x 1).val = (k 1).val; rw [e3, hk1]; omega

/-- WHAT THE ONE POINT WRITES BACK is the (whole) block of the hidden layer. -/
theorem flushed_eq (c : Dev nD) (t : Fin cfg0.N) :
    (dat0 V c).flushed 2 t = ((cfg0.win 2).blk t).view.read (Elt Ideal) (hiddenLayer (V c main_arg1) (V c main_arg2)) := by
  obtain ⟨-, -, -, -, e4, e5⟩ := idx_facts t
  show (cfg0.win 2).cut (grid0.coords t) ((dat0 V c).after 2 t) = _
  rw [after0_2]
  unfold out0_2
  rw [View.canon_unit_zero hz]
  simp only [View.ld_unit_zero (S := S10000x128) hz, View.ld_unit_zero (S := S128x16) hz]
  funext j
  rw [View.read_apply]
  refine (congrFun (Pay.pay0_eq (iblk0 V c 0 t) (iblk0 V c 1 t)) _).trans ?_
  unfold hiddenLayer
  have hr : (((cfg0.win 2).blk t).view.emb j (0 : Fin 2)).val = (j 0).val := by
    show win0_2.index t (0 : Fin 2) * 10000 + 1 * (j 0).val = _; rw [e4]; omega
  have hc : (((cfg0.win 2).blk t).view.emb j (1 : Fin 2)).val = (j 1).val := by
    show win0_2.index t (1 : Fin 2) * 16 + 1 * (j 1).val = _; rw [e5]; omega
  congr 1
  refine Finset.sum_congr rfl fun k _ => ?_
  congr 1
  · exact xblk_apply V c t _ _ hr rfl
  · exact wblk_apply V c t _ _ rfl hc

/-- An index of the result array is in the block iff each coordinate is in the block's range. -/
theorem mem_blk (t : Fin cfg0.N) (i : S10000x16.Idx) :
    i ∈ ((cfg0.win 2).blk t).view.set ↔ ∀ a : Fin 2, win0_2.index t a * S10000x16.size a ≤ (i a).val ∧ (i a).val < win0_2.index t a * S10000x16.size a + S10000x16.size a := by
  show i ∈ ((View.whole main_v0).slice (win0_2.rect t)).set ↔ _
  rw [View.set_slice_whole, Rect.mem_set_unit]
  exact Iff.rfl

/-- The one block is the whole result array. -/
theorem cover (i : S10000x16.Idx) :
    ∃ t : Fin cfg0.N, (cfg0.win 2).flush t = true ∧ i ∈ ((cfg0.win 2).blk t).view.set := by
  have hi0 : (i 0).val < 10000 := idx2_lt0 i
  have hi1 : (i 1).val < 16 := idx2_lt1 i
  obtain ⟨-, -, -, -, e4, e5⟩ := idx_facts t0_0
  refine ⟨t0_0, flush0_2 t0_0, ?_⟩
  rw [mem_blk]
  intro a
  match a with
  | ⟨0, _⟩ => show win0_2.index t0_0 (0 : Fin 2) * 10000 ≤ (i 0).val ∧ (i 0).val < win0_2.index t0_0 (0 : Fin 2) * 10000 + 10000; rw [e4]; omega
  | ⟨1, _⟩ => show win0_2.index t0_0 (1 : Fin 2) * 16 ≤ (i 1).val ∧ (i 1).val < win0_2.index t0_0 (1 : Fin 2) * 16 + 16; rw [e5]; omega

/-- THE RESULT ARRAY after the region is the hidden layer of the arrays the region found. -/
theorem final (c : Dev nD) :
    (dat0 V c).arrAt 2 cfg0.N = hiddenLayer (V c main_arg1) (V c main_arg2) :=
  (dat0 V c).arrAt_eq_of_cover 2 (hiddenLayer (V c main_arg1) (V c main_arg2)) (fun t _ => flushed_eq V c t) cover

end Cert.KernelIdeal.Dense

end
-- ==== Proof.Region1.lean ====
/-
  Propagation region 1, at whatever the arrays hold when it is entered (`V`): its result array ends
  holding A Z, where A is the adjacency matrix and Z the 10000 x 16 matrix it reads whole (the hidden layer, in the narrow float format, which at the extended reals is no change).

  The grid has 25 points. Point t is handed rows 400 t .. 400 t + 399 of A and all of Z, and writes
  back those rows of the product: entry (r, c) of its block is the sum over k of
  A[400 t + r, k] Z[k, c]. Row R of the result lies in the block of point R / 400, so the 25 blocks
  tile the result array and the array ends at the product, entry by entry.
-/
import proofs.«137598_g59090160058611_cont_9to1_m_534_2_alg».proof.Proof.Gen.KernelIdeal.Frame
import proofs.«137598_g59090160058611_cont_9to1_m_534_2_alg».proof.Proof.Payload
import Idealize.ShloMosaic.Lib.Pipeline.Value

noncomputable section

open scoped BigOperators

namespace Cert.KernelIdeal.Prop1

open Cert.KernelIdeal Cert.KernelIdeal.Gen Idealize.ShloMosaic Idealize.ShloMosaic.TcCoe Idealize.SL.Sem
open Idealize.ShloMosaic.ValueIdx Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: point t takes block row t of A (all its columns), the one block
    of Z, and block row t of the result. -/
theorem idx_facts : ∀ t : Fin cfg1.N, win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- Point t's block of A is rows 400 t .. 400 t + 399 of A. -/
theorem ablk_apply (c : Dev nD) (t : Fin cfg1.N) (x : S400x10000.Idx) (k : S10000x10000.Idx)
    (hk0 : (k 0).val = 400 * t.val + (x 0).val) (hk1 : (k 1).val = (x 1).val) :
    (iblk1 V c 0 t : Vec Ideal S400x10000 .f32) x = (V c main_arg0 : S10000x10000.Idx → EReal) k := by
  obtain ⟨e0, e1, -, -, -, -⟩ := idx_facts t
  unfold iblk1
  rw [View.read_apply]
  show V c main_arg0 _ = V c main_arg0 _
  congr 1
  funext a
  apply Fin.ext
  match a with
  | ⟨0, _⟩ => show win1_0.index t (0 : Fin 2) * 400 + 1 * (x 0).val = (k 0).val; rw [e0, hk0]; omega
  | ⟨1, _⟩ => show win1_0.index t (1 : Fin 2) * 10000 + 1 * (x 1).val = (k 1).val; rw [e1, hk1]; omega

/-- Point t's block of Z is all of Z. -/
theorem zblk_apply (c : Dev nD) (t : Fin cfg1.N) (x : S10000x16.Idx) (k : S10000x16.Idx)
    (hk0 : (k 0).val = (x 0).val) (hk1 : (k 1).val = (x 1).val) :
    (iblk1 V c 1 t : Vec Ideal S10000x16 .bf16) x = (V c main_v0 : S10000x16.Idx → EReal) k := by
  obtain ⟨-, -, e2, e3, -, -⟩ := idx_facts t
  unfold iblk1
  rw [View.read_apply]
  show V c main_v0 _ = V c main_v0 _
  congr 1
  funext a
  apply Fin.ext
  match a with
  | ⟨0, _⟩ => show win1_1.index t (0 : Fin 2) * 10000 + 1 * (x 0).val = (k 0).val; rw [e2, hk0]; omega
  | ⟨1, _⟩ => show win1_1.index t (1 : Fin 2) * 16 + 1 * (x 1).val = (k 1).val; rw [e3, hk1]; omega

/-- WHAT POINT t WRITES BACK is block t of A Z. -/
theorem flushed_eq (c : Dev nD) (t : Fin cfg1.N) :
    (dat1 V c).flushed 2 t = ((cfg1.win 2).blk t).view.read (Elt Ideal) (propagate (V c main_arg0) (V c main_v0)) := by
  obtain ⟨-, -, -, -, e4, e5⟩ := idx_facts t
  show (cfg1.win 2).cut (grid1.coords t) ((dat1 V c).after 2 t) = _
  rw [after1_2]
  unfold out1_2
  rw [View.canon_unit_zero hz]
  simp only [View.ld_unit_zero (S := S400x10000) hz, View.ld_unit_zero (S := S10000x16) hz]
  funext j
  rw [View.read_apply]
  refine (Pay.pay1_apply (iblk1 V c 0 t) (iblk1 V c 1 t) _).trans ?_
  unfold propagate
  refine Finset.sum_congr rfl fun k _ => ?_
  have hr : (((cfg1.win 2).blk t).view.emb j (0 : Fin 2)).val = 400 * t.val + (j 0).val := by
    show win1_2.index t (0 : Fin 2) * 400 + 1 * (j 0).val = _; rw [e4]; omega
  have hc : (((cfg1.win 2).blk t).view.emb j (1 : Fin 2)).val = (j 1).val := by
    show win1_2.index t (1 : Fin 2) * 16 + 1 * (j 1).val = _; rw [e5]; omega
  congr 1
  · exact ablk_apply V c t _ _ hr rfl
  · exact zblk_apply V c t _ _ rfl hc

/-- An index of the result array is in point t's block iff each coordinate is in the block's range. -/
theorem mem_blk (t : Fin cfg1.N) (i : S10000x16.Idx) :
    i ∈ ((cfg1.win 2).blk t).view.set ↔ ∀ a : Fin 2, win1_2.index t a * S400x16.size a ≤ (i a).val ∧ (i a).val < win1_2.index t a * S400x16.size a + S400x16.size a := by
  show i ∈ ((View.whole main_v1).slice (win1_2.rect t)).set ↔ _
  rw [View.set_slice_whole, Rect.mem_set_unit]
  exact Iff.rfl

/-- Row R of the result lies in the block of point R / 400: the 25 blocks tile the array. -/
theorem cover (i : S10000x16.Idx) :
    ∃ t : Fin cfg1.N, (cfg1.win 2).flush t = true ∧ i ∈ ((cfg1.win 2).blk t).view.set := by
  have hi0 : (i 0).val < 10000 := idx2_lt0 i
  have hi1 : (i 1).val < 16 := idx2_lt1 i
  have hN : cfg1.N = 25 := N_1
  let t : Fin cfg1.N := ⟨(i 0).val / 400, by rw [hN]; omega⟩
  obtain ⟨-, -, -, -, e4, e5⟩ := idx_facts t
  have ht : t.val = (i 0).val / 400 := rfl
  refine ⟨t, flush1_2 t, ?_⟩
  rw [mem_blk]
  intro a
  match a with
  | ⟨0, _⟩ => show win1_2.index t (0 : Fin 2) * 400 ≤ (i 0).val ∧ (i 0).val < win1_2.index t (0 : Fin 2) * 400 + 400; rw [e4, ht]; omega
  | ⟨1, _⟩ => show win1_2.index t (1 : Fin 2) * 16 ≤ (i 1).val ∧ (i 1).val < win1_2.index t (1 : Fin 2) * 16 + 16; rw [e5]; omega

/-- THE RESULT ARRAY after the region is A Z of the arrays the region found. -/
theorem final (c : Dev nD) :
    (dat1 V c).arrAt 2 cfg1.N = propagate (V c main_arg0) (V c main_v0) :=
  (dat1 V c).arrAt_eq_of_cover 2 (propagate (V c main_arg0) (V c main_v0)) (fun t _ => flushed_eq V c t) cover

end Cert.KernelIdeal.Prop1

end
-- ==== Proof.Region2.lean ====
/-
  Propagation region 2, at whatever the arrays hold when it is entered (`V`): its result array ends
  holding A Z, where A is the adjacency matrix and Z the 10000 x 16 matrix it reads whole (the first propagation step's result).

  The grid has 25 points. Point t is handed rows 400 t .. 400 t + 399 of A and all of Z, and writes
  back those rows of the product: entry (r, c) of its block is the sum over k of
  A[400 t + r, k] Z[k, c]. Row R of the result lies in the block of point R / 400, so the 25 blocks
  tile the result array and the array ends at the product, entry by entry.
-/
import proofs.«137598_g59090160058611_cont_9to1_m_534_2_alg».proof.Proof.Gen.KernelIdeal.Frame
import proofs.«137598_g59090160058611_cont_9to1_m_534_2_alg».proof.Proof.Payload
import Idealize.ShloMosaic.Lib.Pipeline.Value

noncomputable section

open scoped BigOperators

namespace Cert.KernelIdeal.Prop2

open Cert.KernelIdeal Cert.KernelIdeal.Gen Idealize.ShloMosaic Idealize.ShloMosaic.TcCoe Idealize.SL.Sem
open Idealize.ShloMosaic.ValueIdx Gcn
open Idealize.ShloMosaic.Pipeline (Dat)

variable (V : (c : Dev nD) → (b : Ref sig .tc) → Buf (Elt Ideal) ((c : Thread nD τ).loc b))

theorem hz : (![0, 0] : Fin 2 → Nat) = fun _ => 0 := funext fun a => by fin_cases a <;> rfl

/-- The block indices over the grid: point t takes block row t of A (all its columns), the one block
    of Z, and block row t of the result. -/
theorem idx_facts : ∀ t : Fin cfg2.N, win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0 :=
  (by decide +kernel : ∀ t : Fin grid2.N, _)

/-- Point t's block of A is rows 400 t .. 400 t + 399 of A. -/
theorem ablk_apply (c : Dev nD) (t : Fin cfg2.N) (x : S400x10000.Idx) (k : S10000x10000.Idx)
    (hk0 : (k 0).val = 400 * t.val + (x 0).val) (hk1 : (k 1).val = (x 1).val) :
    (iblk2 V c 0 t : Vec Ideal S400x10000 .f32) x = (V c main_arg0 : S10000x10000.Idx → EReal) k := by
  obtain ⟨e0, e1, -, -, -, -⟩ := idx_facts t
  unfold iblk2
  rw [View.read_apply]
  show V c main_arg0 _ = V c main_arg0 _
  congr 1
  funext a
  apply Fin.ext
  match a with
  | ⟨0, _⟩ => show win2_0.index t (0 : Fin 2) * 400 + 1 * (x 0).val = (k 0).val; rw [e0, hk0]; omega
  | ⟨1, _⟩ => show win2_0.index t (1 : Fin 2) * 10000 + 1 * (x 1).val = (k 1).val; rw [e1, hk1]; omega

/-- Point t's block of Z is all of Z. -/
theorem zblk_apply (c : Dev nD) (t : Fin cfg2.N) (x : S10000x16.Idx) (k : S10000x16.Idx)
    (hk0 : (k 0).val = (x 0).val) (hk1 : (k 1).val = (x 1).val) :
    (iblk2 V c 1 t : Vec Ideal S10000x16 .bf16) x = (V c main_v1 : S10000x16.Idx → EReal) k := by
  obtain ⟨-, -, e2, e3, -, -⟩ := idx_facts t
  unfold iblk2
  rw [View.read_apply]
  show V c main_v1 _ = V c main_v1 _
  congr 1
  funext a
  apply Fin.ext
  match a with
  | ⟨0, _⟩ => show win2_1.index t (0 : Fin 2) * 10000 + 1 * (x 0).val = (k 0).val; rw [e2, hk0]; omega
  | ⟨1, _⟩ => show win2_1.index t (1 : Fin 2) * 16 + 1 * (x 1).val = (k 1).val; rw [e3, hk1]; omega

/-- WHAT POINT t WRITES BACK is block t of A Z. -/
theorem flushed_eq (c : Dev nD) (t : Fin cfg2.N) :
    (dat2 V c).flushed 2 t = ((cfg2.win 2).blk t).view.read (Elt Ideal) (propagate (V c main_arg0) (V c main_v1)) := by
  obtain ⟨-, -, -, -, e4, e5⟩ := idx_facts t
  show (cfg2.win 2).cut (grid2.coords t) ((dat2 V c).after 2 t) = _
  rw [after2_2]
  unfold out2_2
  rw [View.canon_unit_zero hz]
  simp only [View.ld_unit_zero (S := S400x10000) hz, View.ld_unit_zero (S := S10000x16) hz]
  funext j
  rw [View.read_apply]
  refine (Pay.pay2_apply (iblk2 V c 0 t) (iblk2 V c 1 t) _).trans ?_
  unfold propagate
  refine Finset.sum_congr rfl fun k _ => ?_
  have hr : (((cfg2.win 2).blk t).view.emb j (0 : Fin 2)).val = 400 * t.val + (j 0).val := by
    show win2_2.index t (0 : Fin 2) * 400 + 1 * (j 0).val = _; rw [e4]; omega
  have hc : (((cfg2.win 2).blk t).view.emb j (1 : Fin 2)).val = (j 1).val := by
    show win2_2.index t (1 : Fin 2) * 16 + 1 * (j 1).val = _; rw [e5]; omega
  congr 1
  · exact ablk_apply V c t _ _ hr rfl
  · exact zblk_apply V c t _ _ rfl hc

/-- An index of the result array is in point t's block iff each coordinate is in the block's range. -/
theorem mem_blk (t : Fin cfg2.N) (i : S10000x16.Idx) :
    i ∈ ((cfg2.win 2).blk t).view.set ↔ ∀ a : Fin 2, win2_2.index t a * S400x16.size a ≤ (i a).val ∧ (i a).val < win2_2.index t a * S400x16.size a + S400x16.size a := by
  show i ∈ ((View.whole main_v2).slice (win2_2.rect t)).set ↔ _
  rw [View.set_slice_whole, Rect.mem_set_unit]
  exact Iff.rfl

/-- Row R of the result lies in the block of point R / 400: the 25 blocks tile the array. -/
theorem cover (i : S10000x16.Idx) :
    ∃ t : Fin cfg2.N, (cfg2.win 2).flush t = true ∧ i ∈ ((cfg2.win 2).blk t).view.set := by
  have hi0 : (i 0).val < 10000 := idx2_lt0 i
  have hi1 : (i 1).val < 16 := idx2_lt1 i
  have hN : cfg2.N = 25 := N_2
  let t : Fin cfg2.N := ⟨(i 0).val / 400, by rw [hN]; omega⟩
  obtain ⟨-, -, -, -, e4, e5⟩ := idx_facts t
  have ht : t.val = (i 0).val / 400 := rfl
  refine ⟨t, flush2_2 t, ?_⟩
  rw [mem_blk]
  intro a
  match a with
  | ⟨0, _⟩ => show win2_2.index t (0 : Fin 2) * 400 ≤ (i 0).val ∧ (i 0).val < win2_2.index t (0 : Fin 2) * 400 + 400; rw [e4, ht]; omega
  | ⟨1, _⟩ => show win2_2.index t (1 : Fin 2) * 16 ≤ (i 1).val ∧ (i 1).val < win2_2.index t (1 : Fin 2) * 16 + 16; rw [e5]; omega

/-- THE RESULT ARRAY after the region is A Z of the arrays the region found. -/
theorem final (c : Dev nD) :
    (dat2 V c).arrAt 2 cfg2.N = propagate (V c main_arg0) (V c main_v1) :=
  (dat2 V c).arrAt_eq_of_cover 2 (propagate (V c main_arg0) (V c main_v1)) (fun t _ => flushed_eq V c t) cover

end Cert.KernelIdeal.Prop2

end
-- ==== Proof.KernelValue.lean ====
/-
  The kernel program's result array, followed through its three regions from the launch memory.

  Region 0 reads X and W as launched and leaves H = max (X W, 0) in its result array; nothing else
  changes. Region 1 reads A, still as launched (region 0 does not touch it), and H, and leaves A H.
  Region 2 reads A, unchanged again (region 1 only reads it), and A H, and leaves A (A H): the layer.
-/
import proofs.«137598_g59090160058611_cont_9to1_m_534_2_alg».proof.Proof.Region0
import proofs.«137598_g59090160058611_cont_9to1_m_534_2_alg».proof.Proof.Region1
import proofs.«137598_g59090160058611_cont_9to1_m_534_2_alg».proof.Proof.Region2

noncomputable section

namespace Cert.KernelIdeal.Layer

open Cert.KernelIdeal Cert.KernelIdeal.Gen Idealize.ShloMosaic Idealize.ShloMosaic.TcCoe Idealize.SL.Sem Gcn

variable (m : (ℓ : Loc nD τ sig) → Buf (Elt Ideal) ℓ) (ρ : Dev nD → PrngReg)

/-- After region 0 its result array holds the hidden layer of the launched X and W. -/
theorem hidden_after0 (c : Dev nD) :
    V1 m ρ c main_v0 = hiddenLayer (m ((c : Thread nD τ).loc main_arg1)) (m ((c : Thread nD τ).loc main_arg2)) :=
  (W1_arr m ρ c 2).trans (Dense.final (V0 m ρ) c)

/-- Region 0 leaves A as launched. -/
theorem adj_after0 (c : Dev nD) : V1 m ρ c main_arg0 = m ((c : Thread nD τ).loc main_arg0) :=
  W1_of_ne m ρ c main_arg0 (by decide)

/-- After region 1 its result array holds A times what region 0 left. -/
theorem step_after1 (c : Dev nD) :
    V2 m ρ c main_v1 = propagate (V1 m ρ c main_arg0) (V1 m ρ c main_v0) :=
  (W2_arr m ρ c 2).trans (Prop1.final (V1 m ρ) c)

/-- Region 1 only reads A. -/
theorem adj_after1 (c : Dev nD) : V2 m ρ c main_arg0 = V1 m ρ c main_arg0 :=
  (W2_arr m ρ c 0).trans (((dat1 (V1 m ρ) c).arrAt_in 0 rfl _).trans (A_eq1 (V1 m ρ) c 0))

/-- After region 2 its result array holds A times what region 1 left. -/
theorem step_after2 (c : Dev nD) :
    W3 m ρ c (Proc.devRef .tc main_v2) = propagate (V2 m ρ c main_arg0) (V2 m ρ c main_v1) :=
  (W3_arr m ρ c 2).trans (Prop2.final (V2 m ρ) c)

/-- THE RESULT: after the last region the result array holds the layer of the launched arrays. -/
theorem result (c : Dev nD) :
    W3 m ρ c (Proc.devRef .tc main_v2)
      = layer (m ((c : Thread nD τ).loc main_arg0)) (m ((c : Thread nD τ).loc main_arg1)) (m ((c : Thread nD τ).loc main_arg2)) := by
  rw [step_after2, adj_after1, step_after1, adj_after0, hidden_after0]
  rfl

end Cert.KernelIdeal.Layer

end
-- ==== Proof.RefValue.lean ====
/-
  The reference program's result, read stage by stage, is the layer A (A max (X W, 0)):
  its three matrix products are each the sum over the contracted index, and its positive part is
  the maximum with the zero splat.
-/
import proofs.«137598_g59090160058611_cont_9to1_m_534_2_alg».proof.Proof.Gen.ReferenceIdeal.Read
import proofs.«137598_g59090160058611_cont_9to1_m_534_2_alg».proof.Proof.Spec

noncomputable section

open scoped BigOperators

namespace Cert.ReferenceIdeal.RefValue

open Cert.ReferenceIdeal Cert.ReferenceIdeal.Read Idealize.ShloMosaic Idealize.ShloMosaic.ValueIdx Gcn

/-- The left operand's index of the first product is (row, k). -/
theorem lidx0 (i : S10000x16.Idx) (k : Fin 128) : lidx_main_v0 i k = ix2 (row i) k :=
  funext fun a => Fin.ext (by match a with | ⟨0, _⟩ => rfl | ⟨1, _⟩ => rfl)
/-- The right operand's index of the first product is (k, column). -/
theorem ridx0 (i : S10000x16.Idx) (k : Fin 128) : ridx_main_v0 i k = ix2 k (col i) :=
  funext fun a => Fin.ext (by match a with | ⟨0, _⟩ => rfl | ⟨1, _⟩ => rfl)
theorem lidx2 (i : S10000x16.Idx) (k : Fin 10000) : lidx_main_v2 i k = ix2 (row i) k :=
  funext fun a => Fin.ext (by match a with | ⟨0, _⟩ => rfl | ⟨1, _⟩ => rfl)
theorem ridx2 (i : S10000x16.Idx) (k : Fin 10000) : ridx_main_v2 i k = ix2 k (col i) :=
  funext fun a => Fin.ext (by match a with | ⟨0, _⟩ => rfl | ⟨1, _⟩ => rfl)
theorem lidx3 (i : S10000x16.Idx) (k : Fin 10000) : lidx_main_v3 i k = ix2 (row i) k :=
  funext fun a => Fin.ext (by match a with | ⟨0, _⟩ => rfl | ⟨1, _⟩ => rfl)
theorem ridx3 (i : S10000x16.Idx) (k : Fin 10000) : ridx_main_v3 i k = ix2 k (col i) :=
  funext fun a => Fin.ext (by match a with | ⟨0, _⟩ => rfl | ⟨1, _⟩ => rfl)

/-- The positive part: the maximum of X W with the splat of the zero word is `hiddenLayer`. -/
theorem relu_eq (x : SX.Idx → EReal) (w : SW.Idx → EReal) : val_main_v1 (F := Ideal) x w = hiddenLayer x w := by
  funext i
  rw [val_main_v1_apply, val_main_v0_apply, val_main_call0_v0_apply, val_main_call0_cst_apply]
  simp only [lidx0, ridx0, Ideal.maximumf_def]
  show max _ (Ideal.ofBits .f32 0x00000000#32) = _
  rw [Ideal.ofBits_zero_f32]
  rfl

/-- The first propagation step. -/
theorem step1_eq (a : SA.Idx → EReal) (x : SX.Idx → EReal) (w : SW.Idx → EReal) :
    val_main_v2 (F := Ideal) a x w = propagate a (hiddenLayer x w) := by
  funext i
  rw [val_main_v2_apply, relu_eq]
  simp only [lidx2, ridx2]
  rfl

/-- The reference's result is the layer. -/
theorem result_eq (a : SA.Idx → EReal) (x : SX.Idx → EReal) (w : SW.Idx → EReal) :
    val_main_v3 (F := Ideal) a x w = layer a x w := by
  funext i
  rw [val_main_v3_apply, step1_eq]
  simp only [lidx3, ridx3]
  rfl

end Cert.ReferenceIdeal.RefValue

end
-- ==== Proof.lean ====
/-
  The certificate of a two-step graph propagation layer: the kernel computes A (A max (X W, 0)) in three
  regions (one dense layer with a positive part, then two products with the 10000 x 10000 matrix A taken
  in 25 blocks of 400 rows), the reference computes the same three matrix products on whole arrays.

  Over the extended reals every change of float format is the identity and every matrix product into a
  zero accumulator is the plain sum over the contracted index, so the two programs are the same function
  of A, X and W, entry by entry, with the products grouped the same way: no law beyond that reading is
  used, and the finiteness of the inputs is never opened.

  The kernel's result array is followed region by region (each region's blocks tile its result array), the
  reference's stage by stage; both end at `Gcn.layer`. The idealized kernel is the kernel's own text read at
  the extended reals (no rewrite was applied), so the idealization claim is trivially true.
-/
import proofs.«137598_g59090160058611_cont_9to1_m_534_2_alg».proof.Defs
import proofs.«137598_g59090160058611_cont_9to1_m_534_2_alg».proof.Proof.Gen.Kernel
import proofs.«137598_g59090160058611_cont_9to1_m_534_2_alg».proof.Proof.Gen.Kernel.Frame
import proofs.«137598_g59090160058611_cont_9to1_m_534_2_alg».proof.Proof.Gen.KernelIdeal
import proofs.«137598_g59090160058611_cont_9to1_m_534_2_alg».proof.Proof.Gen.KernelIdeal.Frame
import proofs.«137598_g59090160058611_cont_9to1_m_534_2_alg».proof.Proof.Gen.ReferenceIdeal
import proofs.«137598_g59090160058611_cont_9to1_m_534_2_alg».proof.Proof.Gen.ReferenceIdeal.Run
import proofs.«137598_g59090160058611_cont_9to1_m_534_2_alg».proof.Proof.Gen.ReferenceIdeal.Read
import proofs.«137598_g59090160058611_cont_9to1_m_534_2_alg».proof.Proof.Gen.Pre_finite_inputs
import proofs.«137598_g59090160058611_cont_9to1_m_534_2_alg».proof.Proof.KernelRun
import proofs.«137598_g59090160058611_cont_9to1_m_534_2_alg».proof.Proof.KernelValue
import proofs.«137598_g59090160058611_cont_9to1_m_534_2_alg».proof.Proof.RefValue
import Idealize.ShloMosaic.Adequacy
import Idealize.ShloMosaic.Init

noncomputable section

namespace Cert.Proof

open Idealize.ShloMosaic Idealize.SL.Sem

/-- The kernel as printed runs and leaves its arguments unchanged. -/
theorem frame_k : Cert.frame_Kernel := fun m ρ _ => Cert.Kernel.Gen.frame m ρ

/-- So does its reading at the extended reals. -/
theorem frame_ki : Cert.frame_KernelIdeal := fun m ρ _ => Cert.KernelIdeal.Gen.frame m ρ

/-- The reference runs and leaves its arguments unchanged: its run with the result forgotten. -/
theorem frame_ri : Cert.frame_ReferenceIdeal := fun m ρ _ =>
  (θ_run Cert.ReferenceIdeal.defs _ _).mono (fun _ h c => (h c).2) (Cert.ReferenceIdeal.Value.run (F := Ideal) m ρ)

/-- Both programs end with the layer A (A max (X W, 0)) of arguments that agree. -/
theorem algebraic : Cert.algebraic_KernelIdeal_ReferenceIdeal := by
  intro m ρ m' ρ' _ hagree
  refine ⟨fun c => Gcn.layer (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2)), ?_, ?_⟩
  · exact (θ_run Cert.KernelIdeal.defs _ _).mono
      (fun _ h c => ⟨(h c).1.trans (Cert.KernelIdeal.Layer.result m ρ c), (h c).2⟩)
      (Cert.KernelIdeal.Named.run_named (F := Ideal) m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v3_eq, Cert.ReferenceIdeal.RefValue.result_eq,
      (hagree c).1, (hagree c).2.1, (hagree c).2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
